-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024x16 : Shape := ⟨2, ![1024, 16]⟩
abbrev S16 : Shape := ⟨1, ![16]⟩
abbrev S16x12 : Shape := ⟨2, ![16, 12]⟩
abbrev S12 : Shape := ⟨1, ![12]⟩
abbrev S12x8 : Shape := ⟨2, ![12, 8]⟩
abbrev S8 : Shape := ⟨1, ![8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_
  bcast_S_S16x12 : S_.BroadcastsInDim S16x12 (![] : Fin 0 → Fin S16x12.rank)
  reducesTo_S16x12_S_d0_1 : S16x12.ReducesTo [0, 1] S_
  bcast_S_S12 : S_.BroadcastsInDim S12 (![] : Fin 0 → Fin S12.rank)
  reducesTo_S12_S_d0 : S12.ReducesTo [0] S_
  bcast_S_S12x8 : S_.BroadcastsInDim S12x8 (![] : Fin 0 → Fin S12x8.rank)
  reducesTo_S12x8_S_d0_1 : S12x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4 .f32) (main_arg12 : FVec F S4x1 .f32) (main_arg13 : FVec F S1 .f32) (main_v48 : IVec S_ 1) (main_v49 : FVec F S4x4 .f32) (main_v50 : FVec F S4x4 .f32) : IVec S_ 1 :=
  let main_v51 : IVec S4x4 1 := cmpf .olt main_v49 main_v50
  let main_c_19 : IVec S_ 1 := constantI S_ 1 1#1
  let main_v52 : IVec S_ 1 := (fun x v => Host.reduce IntOp.andi x v reducesTo_S4x4_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_v59 : FVec F S4x1 .f32 := Host.absf main_arg12
  let main_cst_22 : FVec F S_ .f32 := constant S_ .f32 0x7F800000#32
  let main_v60 : FVec F S4x1 .f32 := broadcastInDim S4x1 ![] bcast_S_S4x1 main_cst_22
  let main_v61 : IVec S4x1 1 := cmpf .olt main_v59 main_v60
  let main_c_23 : IVec S_ 1 := constantI S_ 1 1#1
  let main_v62 : IVec S_ 1 := (fun x v => Host.reduce IntOp.andi x v reducesTo_S4x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S8 .f32) (main_arg8 : FVec F S8x4 .f32) (main_arg9 : FVec F S4 .f32) (main_arg10 : FVec F S4x4 .f32) (main_arg11 : FVec F S4 .f32) (main_arg12 : FVec F S4x1 .f32) (main_arg13 : FVec F S1 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x4 .f32 := Host.absf main_arg8
  let main_cst_14 : FVec F S_ .f32 := constant S_ .f32 0x7F800000#32
  let main_v40 : FVec F S8x4 .f32 := broadcastInDim S8x4 ![] bcast_S_S8x4 main_cst_14
  let main_v41 : IVec S8x4 1 := cmpf .olt main_v39 main_v40
  let main_c_15 : IVec S_ 1 := constantI S_ 1 1#1
  let main_v42 : IVec S_ 1 := (fun x v => Host.reduce IntOp.andi x v reducesTo_S8x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S4x4 .f32 := Host.absf main_arg10
  let main_cst_18 : FVec F S_ .f32 := constant S_ .f32 0x7F800000#32
  let main_v50 : FVec F S4x4 .f32 := broadcastInDim S4x4 ![] bcast_S_S4x4 main_cst_18
  fn_part3 (F := F) main_arg11 main_arg12 main_arg13 main_v48 main_v49 main_v50

def fn_part1 {F : FTy → Type} [FloatOps F] (main_arg4 : FVec F S16x12 .f32) (main_arg5 : FVec F S12 .f32) (main_arg6 : FVec F S12x8 .f32) (main_arg7 : FVec F S8 .f32) (main_arg8 : FVec F S8x4 .f32) (main_arg9 : FVec F S4 .f32) (main_arg10 : FVec F S4x4 .f32) (main_arg11 : FVec F S4 .f32) (main_arg12 : FVec F S4x1 .f32) (main_arg13 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x12 .f32 := Host.absf main_arg4
  let main_cst_6 : FVec F S_ .f32 := constant S_ .f32 0x7F800000#32
  let main_v20 : FVec F S16x12 .f32 := broadcastInDim S16x12 ![] bcast_S_S16x12 main_cst_6
  let main_v21 : IVec S16x12 1 := cmpf .olt main_v19 main_v20
  let main_c_7 : IVec S_ 1 := constantI S_ 1 1#1
  let main_v22 : IVec S_ 1 := (fun x v => Host.reduce IntOp.andi x v reducesTo_S16x12_S_d0_1 h_S_) main_v21 main_c_7
  let main_v23 : IVec S_ 1 := andi main_v18 main_v22
  let main_v24 : FVec F S12 .f32 := Host.absf main_arg5
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  let main_v29 : FVec F S12x8 .f32 := Host.absf main_arg6
  let main_cst_10 : FVec F S_ .f32 := constant S_ .f32 0x7F800000#32
  let main_v30 : FVec F S12x8 .f32 := broadcastInDim S12x8 ![] bcast_S_S12x8 main_cst_10
  let main_v31 : IVec S12x8 1 := cmpf .olt main_v29 main_v30
  let main_c_11 : IVec S_ 1 := constantI S_ 1 1#1
  let main_v32 : IVec S_ 1 := (fun x v => Host.reduce IntOp.andi x v reducesTo_S12x8_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x1024 .f32) (main_arg1 : FVec F S1024x1024 .f32) (main_arg2 : FVec F S1024x16 .f32) (main_arg3 : FVec F S16 .f32) (main_arg4 : FVec F S16x12 .f32) (main_arg5 : FVec F S12 .f32) (main_arg6 : FVec F S12x8 .f32) (main_arg7 : FVec F S8 .f32) (main_arg8 : FVec F S8x4 .f32) (main_arg9 : FVec F S4 .f32) (main_arg10 : FVec F S4x4 .f32) (main_arg11 : FVec F S4 .f32) (main_arg12 : FVec F S4x1 .f32) (main_arg13 : FVec F S1 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x16 .f32 := Host.absf main_arg2
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x1024 : Shape := ⟨2, ![32768, 1024]⟩
abbrev S1024x1024 : Shape := ⟨2, ![1024, 1024]⟩
abbrev S1024x16 : Shape := ⟨2, ![1024, 16]⟩
abbrev S16 : Shape := ⟨1, ![16]⟩
abbrev S16x12 : Shape := ⟨2, ![16, 12]⟩
abbrev S12 : Shape := ⟨1, ![12]⟩
abbrev S12x8 : Shape := ⟨2, ![12, 8]⟩
abbrev S8 : Shape := ⟨1, ![8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S32768x1 : Shape := ⟨2, ![32768, 1]⟩
abbrev S1024x1 : Shape := ⟨2, ![1024, 1]⟩
abbrev S1024 : Shape := ⟨1, ![1024]⟩
abbrev S1x1024 : Shape := ⟨2, ![1, 1024]⟩
abbrev S1x16 : Shape := ⟨2, ![1, 16]⟩
abbrev S1024x12 : Shape := ⟨2, ![1024, 12]⟩
abbrev S1x12 : Shape := ⟨2, ![1, 12]⟩
abbrev S1024x8 : Shape := ⟨2, ![1024, 8]⟩
abbrev S1x8 : Shape := ⟨2, ![1, 8]⟩
abbrev S1024x4 : Shape := ⟨2, ![1024, 4]⟩
abbrev S1x4 : Shape := ⟨2, ![1, 4]⟩
abbrev S1x1 : Shape := ⟨2, ![1, 1]⟩

abbrev nBuf : Space → Nat
  | .hbm => 15
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x16, .f32⟩
  | .hbm, ⟨3, _⟩ => ⟨S16, .f32⟩
  | .hbm, ⟨4, _⟩ => ⟨S16x12, .f32⟩
  | .hbm, ⟨5, _⟩ => ⟨S12, .f32⟩
  | .hbm, ⟨6, _⟩ => ⟨S12x8, .f32⟩
  | .hbm, ⟨7, _⟩ => ⟨S8, .f32⟩
  | .hbm, ⟨8, _⟩ => ⟨S8x4, .f32⟩
  | .hbm, ⟨9, _⟩ => ⟨S4, .f32⟩
  | .hbm, ⟨10, _⟩ => ⟨S4x4, .f32⟩
  | .hbm, ⟨11, _⟩ => ⟨S4, .f32⟩
  | .hbm, ⟨12, _⟩ => ⟨S4x1, .f32⟩
  | .hbm, ⟨13, _⟩ => ⟨S1, .f32⟩
  | .hbm, ⟨14, _⟩ => ⟨S32768x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x16, .f32⟩
  | .local _ .vmem, ⟨4, _⟩ => ⟨S16, .f32⟩
  | .local _ .vmem, ⟨5, _⟩ => ⟨S16x12, .f32⟩
  | .local _ .vmem, ⟨6, _⟩ => ⟨S12, .f32⟩
  | .local _ .vmem, ⟨7, _⟩ => ⟨S12x8, .f32⟩
  | .local _ .vmem, ⟨8, _⟩ => ⟨S8, .f32⟩
  | .local _ .vmem, ⟨9, _⟩ => ⟨S8x4, .f32⟩
  | .local _ .vmem, ⟨10, _⟩ => ⟨S4, .f32⟩
  | .local _ .vmem, ⟨11, _⟩ => ⟨S4x4, .f32⟩
  | .local _ .vmem, ⟨12, _⟩ => ⟨S4, .f32⟩
  | .local _ .vmem, ⟨13, _⟩ => ⟨S4x1, .f32⟩
  | .local _ .vmem, ⟨14, _⟩ => ⟨S1, .f32⟩
  | .local _ .vmem, ⟨15, _⟩ => ⟨S1024x1, .f32⟩
  | .local _ .vmem, ⟨16, _⟩ => ⟨S1024x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x1024_p1_0_S1024x1024 : S1024x1024.Transposes [1, 0] S1024x1024
  broadcasts_S1024x1_S1024x1024 : S1024x1.Broadcasts S1024x1024
  broadcasts_S1x1024_S1024x1024 : S1x1024.Broadcasts S1024x1024
  inb_S1024x16_S1024x16_0_0 : ∀ a, (![0, 0] : Fin 2 → Nat) a + S1024x16.size a ≤ S1024x16.size a
  h_S1024x16 : 0 < S1024x16.numel
  inb_S16_S16_0 : ∀ a, (![0] : Fin 1 → Nat) a + S16.size a ≤ S16.size a
  h_S16 : 0 < S16.numel
  shapeCasts_S16_S1x16 : S16.ShapeCasts S1x16
  broadcasts_S1x16_S1024x16 : S1x16.Broadcasts S1024x16
  inb_S16x12_S16x12_0_0 : ∀ a, (![0, 0] : Fin 2 → Nat) a + S16x12.size a ≤ S16x12.size a
  h_S16x12 : 0 < S16x12.numel
  inb_S12_S12_0 : ∀ a, (![0] : Fin 1 → Nat) a + S12.size a ≤ S12.size a
  h_S12 : 0 < S12.numel
  shapeCasts_S12_S1x12 : S12.ShapeCasts S1x12
  broadcasts_S1x12_S1024x12 : S1x12.Broadcasts S1024x12
  inb_S12x8_S12x8_0_0 : ∀ a, (![0, 0] : Fin 2 → Nat) a + S12x8.size a ≤ S12x8.size a
  h_S12x8 : 0 < S12x8.numel
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S8x4_S8x4_0_0 : ∀ a, (![0, 0] : Fin 2 → Nat) a + S8x4.size a ≤ S8x4.size a
  h_S8x4 : 0 < S8x4.numel
  inb_S4_S4_0 : ∀ a, (![0] : Fin 1 → Nat) a + S4.size a ≤ S4.size a
  h_S4 : 0 < S4.numel
  shapeCasts_S4_S1x4 : S4.ShapeCasts S1x4
  broadcasts_S1x4_S1024x4 : S1x4.Broadcasts S1024x4
  inb_S4x4_S4x4_0_0 : ∀ a, (![0, 0] : Fin 2 → Nat) a + S4x4.size a ≤ S4x4.size a
  h_S4x4 : 0 < S4x4.numel
  inb_S4x1_S4x1_0_0 : ∀ a, (![0, 0] : Fin 2 → Nat) a + S4x1.size a ≤ S4x1.size a
  h_S4x1 : 0 < S4x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1024_S1024x1024_S1024x1024_1_0_0_1_n_n_wf : DotDims.WF S1024x1024 S1024x1024 S1024x1024 [1] [0] [0] [1] [] []
  dot_S1024x1024_S1024x16_S1024x16_1_0_0_1_n_n_wf : DotDims.WF S1024x1024 S1024x16 S1024x16 [1] [0] [0] [1] [] []
  dot_S1024x16_S16x12_S1024x12_1_0_0_1_n_n_wf : DotDims.WF S1024x16 S16x12 S1024x12 [1] [0] [0] [1] [] []
  dot_S1024x12_S12x8_S1024x8_1_0_0_1_n_n_wf : DotDims.WF S1024x12 S12x8 S1024x8 [1] [0] [0] [1] [] []
  dot_S1024x8_S8x4_S1024x4_1_0_0_1_n_n_wf : DotDims.WF S1024x8 S8x4 S1024x4 [1] [0] [0] [1] [] []
  dot_S1024x4_S4x4_S1024x4_1_0_0_1_n_n_wf : DotDims.WF S1024x4 S4x4 S1024x4 [1] [0] [0] [1] [] []
  dot_S1024x4_S4x1_S1024x1_1_0_0_1_n_n_wf : DotDims.WF S1024x4 S4x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .f32 = 32 ∨ (Rect.block (s := S1024x16) S1024x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x12.size a ≤ S16x12.size a
  hwx0_4 : ∀ i : grid0.Coords, EltTy.bits .f32 = 32 ∨ (Rect.block (s := S16x12) S16x12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12.size a ≤ S12.size a
  hwx0_5 : ∀ i : grid0.Coords, EltTy.bits .f32 = 32 ∨ (Rect.block (s := S12) S12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12x8.size a ≤ S12x8.size a
  hwx0_6 : ∀ i : grid0.Coords, EltTy.bits .f32 = 32 ∨ (Rect.block (s := S12x8) S12x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x4.size a ≤ S8x4.size a
  hwx0_8 : ∀ i : grid0.Coords, EltTy.bits .f32 = 32 ∨ (Rect.block (s := S8x4) S8x4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4.size a ≤ S4.size a
  hwx0_9 : ∀ i : grid0.Coords, EltTy.bits .f32 = 32 ∨ (Rect.block (s := S4) S4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x4.size a ≤ S4x4.size a
  hwx0_10 : ∀ i : grid0.Coords, EltTy.bits .f32 = 32 ∨ (Rect.block (s := S4x4) S4x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4.size a ≤ S4.size a
  hwx0_11 : ∀ i : grid0.Coords, EltTy.bits .f32 = 32 ∨ (Rect.block (s := S4) S4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x1.size a ≤ S4x1.size a
  hwx0_12 : ∀ i : grid0.Coords, EltTy.bits .f32 = 32 ∨ (Rect.block (s := S4x1) S4x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x1.size a ≤ S32768x1.size a
  hwx0_14 : ∀ i : grid0.Coords, EltTy.bits .f32 = 32 ∨ (Rect.block (s := S32768x1) S1024x1.size (cc0_transform_14 i) (hinb0_14 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x12_S1024x12_1_0_0_1_n_n : DotDims S1024x16 S16x12 S1024x12 where
  lhsContracting := [1]
  rhsContracting := [0]
  lhsNonContracting := [0]
  rhsNonContracting := [1]
  lhsBatch := []
  rhsBatch := []
  wf := dot_S1024x16_S16x12_S1024x12_1_0_0_1_n_n_wf
def dot_S1024x12_S12x8_S1024x8_1_0_0_1_n_n : DotDims S1024x12 S12x8 S1024x8 where
  lhsContracting := [1]
  rhsContracting := [0]
  lhsNonContracting := [0]
  rhsNonContracting := [1]
  lhsBatch := []
  rhsBatch := []
  wf := dot_S1024x12_S12x8_S1024x8_1_0_0_1_n_n_wf
def dot_S1024x8_S8x4_S1024x4_1_0_0_1_n_n : DotDims S1024x8 S8x4 S1024x4 where
  lhsContracting := [1]
  rhsContracting := [0]
  lhsNonContracting := [0]
  rhsNonContracting := [1]
  lhsBatch := []
  rhsBatch := []
  wf := dot_S1024x8_S8x4_S1024x4_1_0_0_1_n_n_wf
def dot_S1024x4_S4x4_S1024x4_1_0_0_1_n_n : DotDims S1024x4 S4x4 S1024x4 where
  lhsContracting := [1]
  rhsContracting := [0]
  lhsNonContracting := [0]
  rhsNonContracting := [1]
  lhsBatch := []
  rhsBatch := []
  wf := dot_S1024x4_S4x4_S1024x4_1_0_0_1_n_n_wf
def dot_S1024x4_S4x1_S1024x1_1_0_0_1_n_n : DotDims S1024x4 S4x1 S1024x1 where
  lhsContracting := [1]
  rhsContracting := [0]
  lhsNonContracting := [0]
  rhsNonContracting := [1]
  lhsBatch := []
  rhsBatch := []
  wf := dot_S1024x4_S4x1_S1024x1_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S12x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S4x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S4x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S1024x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024x16 : Shape := ⟨2, ![1024, 16]⟩
abbrev S16 : Shape := ⟨1, ![16]⟩
abbrev S16x12 : Shape := ⟨2, ![16, 12]⟩
abbrev S12 : Shape := ⟨1, ![12]⟩
abbrev S12x8 : Shape := ⟨2, ![12, 8]⟩
abbrev S8 : Shape := ⟨1, ![8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x16 : Shape := ⟨2, ![32768, 16]⟩
abbrev S1x16 : Shape := ⟨2, ![1, 16]⟩
abbrev S32768x12 : Shape := ⟨2, ![32768, 12]⟩
abbrev S1x12 : Shape := ⟨2, ![1, 12]⟩
abbrev S32768x8 : Shape := ⟨2, ![32768, 8]⟩
abbrev S1x8 : Shape := ⟨2, ![1, 8]⟩
abbrev S32768x4 : Shape := ⟨2, ![32768, 4]⟩
abbrev S1x4 : Shape := ⟨2, ![1, 4]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x16, .f32⟩
  | .hbm, ⟨3, _⟩ => ⟨S16, .f32⟩
  | .hbm, ⟨4, _⟩ => ⟨S16x12, .f32⟩
  | .hbm, ⟨5, _⟩ => ⟨S12, .f32⟩
  | .hbm, ⟨6, _⟩ => ⟨S12x8, .f32⟩
  | .hbm, ⟨7, _⟩ => ⟨S8, .f32⟩
  | .hbm, ⟨8, _⟩ => ⟨S8x4, .f32⟩
  | .hbm, ⟨9, _⟩ => ⟨S4, .f32⟩
  | .hbm, ⟨10, _⟩ => ⟨S4x4, .f32⟩
  | .hbm, ⟨11, _⟩ => ⟨S4, .f32⟩
  | .hbm, ⟨12, _⟩ => ⟨S4x1, .f32⟩
  | .hbm, ⟨13, _⟩ => ⟨S1, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S1024x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S1024x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x16, .f32⟩
  | .hbm, ⟨39, _⟩ => ⟨S1x16, .f32⟩
  | .hbm, ⟨40, _⟩ => ⟨S32768x16, .f32⟩
  | .hbm, ⟨41, _⟩ => ⟨S32768x16, .f32⟩
  | .hbm, ⟨42, _⟩ => ⟨S32768x16, .f32⟩
  | .hbm, ⟨43, _⟩ => ⟨S32768x12, .f32⟩
  | .hbm, ⟨44, _⟩ => ⟨S1x12, .f32⟩
  | .hbm, ⟨45, _⟩ => ⟨S32768x12, .f32⟩
  | .hbm, ⟨46, _⟩ => ⟨S32768x12, .f32⟩
  | .hbm, ⟨47, _⟩ => ⟨S32768x12, .f32⟩
  | .hbm, ⟨48, _⟩ => ⟨S32768x8, .f32⟩
  | .hbm, ⟨49, _⟩ => ⟨S1x8, .f32⟩
  | .hbm, ⟨50, _⟩ => ⟨S32768x8, .f32⟩
  | .hbm, ⟨51, _⟩ => ⟨S32768x8, .f32⟩
  | .hbm, ⟨52, _⟩ => ⟨S32768x8, .f32⟩
  | .hbm, ⟨53, _⟩ => ⟨S32768x4, .f32⟩
  | .hbm, ⟨54, _⟩ => ⟨S1x4, .f32⟩
  | .hbm, ⟨55, _⟩ => ⟨S32768x4, .f32⟩
  | .hbm, ⟨56, _⟩ => ⟨S32768x4, .f32⟩
  | .hbm, ⟨57, _⟩ => ⟨S32768x4, .f32⟩
  | .hbm, ⟨58, _⟩ => ⟨S32768x4, .f32⟩
  | .hbm, ⟨59, _⟩ => ⟨S1x4, .f32⟩
  | .hbm, ⟨60, _⟩ => ⟨S32768x4, .f32⟩
  | .hbm, ⟨61, _⟩ => ⟨S32768x4, .f32⟩
  | .hbm, ⟨62, _⟩ => ⟨S32768x4, .f32⟩
  | .hbm, ⟨63, _⟩ => ⟨S32768x1, .f32⟩
  | .hbm, ⟨64, _⟩ => ⟨S1x1, .f32⟩
  | .hbm, ⟨65, _⟩ => ⟨S32768x1, .f32⟩
  | .hbm, ⟨66, _⟩ => ⟨S32768x1, .f32⟩
  | .hbm, ⟨67, _⟩ => ⟨S32768x1, .f32⟩
  | .hbm, ⟨68, _⟩ => ⟨S32768x1, .f32⟩
  | .hbm, ⟨69, _⟩ => ⟨S_, .f32⟩
  | .hbm, ⟨70, _⟩ => ⟨S32768x1, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_4 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  reducesTo_S1024x1024_S1024_d1 : S1024x1024.ReducesTo [1] S1024
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  transposes_S1024x1024_S1024x1024_1_0 : S1024x1024.Transposes [1, 0] S1024x1024
  bcast_S_S32768x1024 : S_.BroadcastsInDim S32768x1024 (![] : Fin 0 → Fin S32768x1024.rank)
  bcast_S16_S1x16_1 : S16.BroadcastsInDim S1x16 (![1] : Fin 1 → Fin S1x16.rank)
  bcast_S1x16_S32768x16_0_1 : S1x16.BroadcastsInDim S32768x16 (![0, 1] : Fin 2 → Fin S32768x16.rank)
  bcast_S12_S1x12_1 : S12.BroadcastsInDim S1x12 (![1] : Fin 1 → Fin S1x12.rank)
  bcast_S1x12_S32768x12_0_1 : S1x12.BroadcastsInDim S32768x12 (![0, 1] : Fin 2 → Fin S32768x12.rank)
  bcast_S8_S1x8_1 : S8.BroadcastsInDim S1x8 (![1] : Fin 1 → Fin S1x8.rank)
  bcast_S1x8_S32768x8_0_1 : S1x8.BroadcastsInDim S32768x8 (![0, 1] : Fin 2 → Fin S32768x8.rank)
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  dot_S32768x1024_S1024x1024_S32768x1024_1_0_0_1_n_n_wf : DotDims.WF S32768x1024 S1024x1024 S32768x1024 [1] [0] [0] [1] [] []
  dot_S32768x1024_S1024x16_S32768x16_1_0_0_1_n_n_wf : DotDims.WF S32768x1024 S1024x16 S32768x16 [1] [0] [0] [1] [] []
  dot_S32768x16_S16x12_S32768x12_1_0_0_1_n_n_wf : DotDims.WF S32768x16 S16x12 S32768x12 [1] [0] [0] [1] [] []
  dot_S32768x12_S12x8_S32768x8_1_0_0_1_n_n_wf : DotDims.WF S32768x12 S12x8 S32768x8 [1] [0] [0] [1] [] []
  dot_S32768x8_S8x4_S32768x4_1_0_0_1_n_n_wf : DotDims.WF S32768x8 S8x4 S32768x4 [1] [0] [0] [1] [] []
  dot_S32768x4_S4x4_S32768x4_1_0_0_1_n_n_wf : DotDims.WF S32768x4 S4x4 S32768x4 [1] [0] [0] [1] [] []
  dot_S32768x4_S4x1_S32768x1_1_0_0_1_n_n_wf : DotDims.WF S32768x4 S4x1 S32768x1 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x16_S32768x16_1_0_0_1_n_n : DotDims S32768x1024 S1024x16 S32768x16 where
  lhsContracting := [1]
  rhsContracting := [0]
  lhsNonContracting := [0]
  rhsNonContracting := [1]
  lhsBatch := []
  rhsBatch := []
  wf := dot_S32768x1024_S1024x16_S32768x16_1_0_0_1_n_n_wf
def dot_S32768x16_S16x12_S32768x12_1_0_0_1_n_n : DotDims S32768x16 S16x12 S32768x12 where
  lhsContracting := [1]
  rhsContracting := [0]
  lhsNonContracting := [0]
  rhsNonContracting := [1]
  lhsBatch := []
  rhsBatch := []
  wf := dot_S32768x16_S16x12_S32768x12_1_0_0_1_n_n_wf
def dot_S32768x12_S12x8_S32768x8_1_0_0_1_n_n : DotDims S32768x12 S12x8 S32768x8 where
  lhsContracting := [1]
  rhsContracting := [0]
  lhsNonContracting := [0]
  rhsNonContracting := [1]
  lhsBatch := []
  rhsBatch := []
  wf := dot_S32768x12_S12x8_S32768x8_1_0_0_1_n_n_wf
def dot_S32768x8_S8x4_S32768x4_1_0_0_1_n_n : DotDims S32768x8 S8x4 S32768x4 where
  lhsContracting := [1]
  rhsContracting := [0]
  lhsNonContracting := [0]
  rhsNonContracting := [1]
  lhsBatch := []
  rhsBatch := []
  wf := dot_S32768x8_S8x4_S32768x4_1_0_0_1_n_n_wf
def dot_S32768x4_S4x4_S32768x4_1_0_0_1_n_n : DotDims S32768x4 S4x4 S32768x4 where
  lhsContracting := [1]
  rhsContracting := [0]
  lhsNonContracting := [0]
  rhsNonContracting := [1]
  lhsBatch := []
  rhsBatch := []
  wf := dot_S32768x4_S4x4_S32768x4_1_0_0_1_n_n_wf
def dot_S32768x4_S4x1_S32768x1_1_0_0_1_n_n : DotDims S32768x4 S4x1 S32768x1 where
  lhsContracting := [1]
  rhsContracting := [0]
  lhsNonContracting := [0]
  rhsNonContracting := [1]
  lhsBatch := []
  rhsBatch := []
  wf := dot_S32768x4_S4x1_S32768x1_1_0_0_1_n_n_wf

class Facts : Prop extends Facts₀ where

variable [Facts]
-- ==== Proof.LibDense.lean ====
/-
  Reading a block of rows at ONE entry, on the extended reals: the few facts a row-wise network needs.

  A kernel that handles a block of M rows at once computes, for each row, a function of that row alone. To
  say so one reads every whole-block operation at an entry (p, a):
    * the column forms of a row sum kept as a column: a length-a vector cast to [a, 1], and a column [a, 1]
      broadcast along a second axis, read the vector at the row coordinate;
    * a sum over the second axis of an [a, b] block, at row p, is the sum over k of the entries (p, k);
    * a plain [M, K] x [K, N] product into the zero accumulator, at (p, a), is the sum over k of
      lhs (p, k) * rhs (k, a): row p of the left operand against column a of the right;
    * so a dense layer  H W + b  (b a length-N vector laid as one row and repeated down the block), at (p, a),
      is  (sum over k of H (p, k) * W (k, a)) + b a : it reads row p of H and nothing else of H.
  Everything is stated over indices built from literal coordinates (ix1, ix2), for any extents.
-/
import Idealize.ShloMosaic.PureOps.Ideal
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.LibDense

variable {α : Type}

/-! ## A vector kept as a column -/

/-- A length-`a` vector cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A sum along the second axis -/

/-- The sum of an `[a, b]` block along its second axis, at row `p`: the sum over `k` of the entries `(p, k)`. -/
theorem rowsum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  exact Fin.ext (by match c with | ⟨0, _⟩ => rfl | ⟨1, _⟩ => rfl)

/-- A row's sum of squares kept as a column and spread along a second axis of extent `n`: at `(p, j)` it is
    the sum over `k` of `v (p, k)` squared, whatever `j`. -/
theorem sumsq_col_apply {a b n : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) (p : Fin a) (j : Fin n) :
    broadcastTo ⟨2, ![a, n]⟩ (shapeCast ⟨2, ![a, 1]⟩ (multiReduction .add [1] ⟨1, ![a]⟩ (mulf v v) 0x00000000#32 h hφ hacc) hc) hb (ix2 p j)
      = ∑ k : Fin b, v (ix2 p k) * v (ix2 p k) := by
  rw [broadcastTo_a1_ab_apply, shapeCast_a_a1_apply]
  exact rowsum_apply (mulf v v) h hφ hacc p

/-- The same column turned into a row `[1, a]` and spread down `n` rows: at `(p, j)` it is the sum over `k` of
    `v (j, k)` squared, whatever `p`. -/
theorem sumsq_row_apply {a b n : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (ht : (⟨2, ![a, 1]⟩ : Shape).Transposes [1, 0] ⟨2, ![1, a]⟩)
    (hb : (⟨2, ![1, a]⟩ : Shape).Broadcasts ⟨2, ![n, a]⟩) (p : Fin n) (j : Fin a) :
    broadcastTo ⟨2, ![n, a]⟩ (transpose ⟨2, ![1, a]⟩ [1, 0]
        (shapeCast ⟨2, ![a, 1]⟩ (multiReduction .add [1] ⟨1, ![a]⟩ (mulf v v) 0x00000000#32 h hφ hacc) hc) ht) hb (ix2 p j)
      = ∑ k : Fin b, v (ix2 j k) * v (ix2 j k) := by
  rw [broadcastTo_1b_ab_apply, transpose_ix2_apply, shapeCast_a_a1_apply]
  exact rowsum_apply (mulf v v) h hφ hacc j

/-! ## A plain matrix product at an entry -/

/-- The contraction of a plain `[M, K] × [K, N]` product at `(p, a)`, re-indexed by the one contracted coordinate:
    the left operand is read along row `p`, the right one down column `a`. -/
theorem plain_contr_sum {M K N : ℕ} (L : (⟨2, ![M, K]⟩ : Shape).Idx → EReal) (R : (⟨2, ![K, N]⟩ : Shape).Idx → EReal)
    (p : Fin M) (a : Fin N) :
    ∑ q : (DotDims.plain M K N).contr.Idx,
        L ((DotDims.plain M K N).lhsIdx (ix2 p a) q) * R ((DotDims.plain M K N).rhsIdx (ix2 p a) q)
      = ∑ k : Fin K, L (ix2 p k) * R (ix2 k a) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p a) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single rfl _ _).trans hk)
  have er : (DotDims.plain M K N).rhsIdx (ix2 p a) ((contrEquiv1 (DotDims.plain M K N) K rfl rfl).symm k) = ix2 k a :=
    funext fun c => Fin.ext (by
      match c with
      | ⟨0, _⟩ => exact ((DotDims.plain M K N).rhsIdx_val_of_single rfl _ _).trans hk
      | ⟨1, _⟩ => rfl)
  rw [el, er]

/-- A plain `[M, K] × [K, N]` product into the zero accumulator, at `(p, a)`: the sum over `k` of
    `lhs (p, k) * rhs (k, a)`. The dimension numbers are any record equal to the plain one. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (a : Fin N) :
    matmul d prec lhs rhs (constant ⟨2, ![M, N]⟩ .f32 0x00000000#32) (ix2 p a) = ∑ k : Fin K, lhs (ix2 p k) * rhs (ix2 k a) := by
  subst hd
  simp only [matmul]
  rw [Ideal.matmul_constant_zero_apply]
  exact plain_contr_sum lhs rhs p a

/-- The same product as the host spells it (no accumulator), at `(p, a)`. -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (a : Fin N) :
    Host.dotGeneral d prec lhs rhs (ix2 p a) = ∑ k : Fin K, lhs (ix2 p k) * rhs (ix2 k a) := by
  subst hd
  simp only [Host.dotGeneral]
  rw [Ideal.dotGeneral_apply]
  exact plain_contr_sum lhs rhs p a

/-! ## A dense layer on a block of rows -/

/-- What one row gives through a dense layer: `act ((Σ k, h k * W (k, a)) + b a)`. -/
def dense (act : EReal → EReal) {K N : ℕ} (h : Fin K → EReal) (W : (⟨2, ![K, N]⟩ : Shape).Idx → EReal)
    (b : (⟨1, ![N]⟩ : Shape).Idx → EReal) (a : Fin N) : EReal :=
  act ((∑ k : Fin K, h k * W (ix2 k a)) + b (ix1 a))

/-- The affine part `H W + b` of a dense layer on a block of `M` rows, at `(p, a)`: it reads row `p` of `H` only. -/
theorem affine_apply {M K N : ℕ} (d : DotDims ⟨2, ![M, K]⟩ ⟨2, ![K, N]⟩ ⟨2, ![M, N]⟩) (hd : d = DotDims.plain M K N)
    (H : FVec Ideal ⟨2, ![M, K]⟩ .f32) (W : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩) (p : Fin M) (a : Fin N) :
    addf (matmul d none H W (constant ⟨2, ![M, N]⟩ .f32 0x00000000#32)) (broadcastTo ⟨2, ![M, N]⟩ (shapeCast ⟨2, ![1, N]⟩ b h1) h2) (ix2 p a)
      = (∑ k : Fin K, H (ix2 p k) * W (ix2 k a)) + b (ix1 a) := by
  rw [addf_apply, matmul_plain_zero_apply d hd, broadcastTo_1b_ab_apply, shapeCast_a_1a_apply]

/-- A dense layer with `tanh` on a block of rows, at `(p, a)`, from what row `p` of its input is. -/
theorem tanh_dense_row {M K N : ℕ} (d : DotDims ⟨2, ![M, K]⟩ ⟨2, ![K, N]⟩ ⟨2, ![M, N]⟩) (hd : d = DotDims.plain M K N)
    (H : FVec Ideal ⟨2, ![M, K]⟩ .f32) (W : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩) (p : Fin M)
    (r : Fin K → EReal) (hr : ∀ k, H (ix2 p k) = r k) (a : Fin N) :
    tanh (addf (matmul d none H W (constant ⟨2, ![M, N]⟩ .f32 0x00000000#32)) (broadcastTo ⟨2, ![M, N]⟩ (shapeCast ⟨2, ![1, N]⟩ b h1) h2)) (ix2 p a)
      = dense Ideal.tanh r W b a := by
  refine (congrArg Ideal.tanh (affine_apply d hd H W b h1 h2 p a)).trans ?_
  exact congrArg (fun s => Ideal.tanh (s + b (ix1 a))) (Finset.sum_congr rfl fun k _ => by rw [hr k])

/-- A dense layer with the logistic function on a block of rows, at `(p, a)`, from what row `p` of its input is. -/
theorem logistic_dense_row {M K N : ℕ} (d : DotDims ⟨2, ![M, K]⟩ ⟨2, ![K, N]⟩ ⟨2, ![M, N]⟩) (hd : d = DotDims.plain M K N)
    (H : FVec Ideal ⟨2, ![M, K]⟩ .f32) (W : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩) (p : Fin M)
    (r : Fin K → EReal) (hr : ∀ k, H (ix2 p k) = r k) (a : Fin N) :
    logistic (addf (matmul d none H W (constant ⟨2, ![M, N]⟩ .f32 0x00000000#32)) (broadcastTo ⟨2, ![M, N]⟩ (shapeCast ⟨2, ![1, N]⟩ b h1) h2)) (ix2 p a)
      = dense Ideal.logistic r W b a := by
  refine (congrArg Ideal.logistic (affine_apply d hd H W b h1 h2 p a)).trans ?_
  exact congrArg (fun s => Ideal.logistic (s + b (ix1 a))) (Finset.sum_congr rfl fun k _ => by rw [hr k])

/-! ## The same layers as a host program spells them -/

/-- A length-`N` bias laid as one row `[1, N]` and repeated down `M` rows, by two `broadcast_in_dim`s: at `(p, a)` it is
    the bias at `a`. -/
theorem bias_bcast_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (a : Fin N) :
    broadcastInDim ⟨2, ![M, N]⟩ ![0, 1] h2 (broadcastInDim ⟨2, ![1, N]⟩ ![1] h1 b) (ix2 p a) = b (ix1 a) := by
  refine (broadcastInDim_apply _ h2 _ (ix2 p a) (ix2 (0 : Fin 1) a) fun ax => ?_).trans
    (broadcastInDim_apply _ h1 b (ix2 (0 : Fin 1) a) (ix1 a) fun ax => ?_)
  · match ax with
    | ⟨0, _⟩ => rfl
    | ⟨1, _⟩ =>
      show a.val = if N = 1 then 0 else a.val
      split
      · have := a.isLt; omega
      · rfl
  · match ax with
    | ⟨0, _⟩ =>
      show a.val = if N = 1 then 0 else a.val
      split
      · have := a.isLt; omega
      · rfl

/-- The host's affine part `H W + b` on `M` rows, at `(p, a)`. -/
theorem host_affine_apply {M K N : ℕ} (d : DotDims ⟨2, ![M, K]⟩ ⟨2, ![K, N]⟩ ⟨2, ![M, N]⟩) (hd : d = DotDims.plain M K N)
    (H : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (a : Fin N) :
    addf (Host.dotGeneral d none H W) (broadcastInDim ⟨2, ![M, N]⟩ ![0, 1] h2 (broadcastInDim ⟨2, ![1, N]⟩ ![1] h1 b)) (ix2 p a)
      = (∑ k : Fin K, H (ix2 p k) * W (ix2 k a)) + b (ix1 a) := by
  rw [addf_apply, dotGeneral_plain_apply d hd, bias_bcast_apply]

/-- The host's dense layer with `tanh`, at `(p, a)`, from what row `p` of its input is. -/
theorem host_tanh_dense_row {M K N : ℕ} (d : DotDims ⟨2, ![M, K]⟩ ⟨2, ![K, N]⟩ ⟨2, ![M, N]⟩) (hd : d = DotDims.plain M K N)
    (H : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M)
    (r : Fin K → EReal) (hr : ∀ k, H (ix2 p k) = r k) (a : Fin N) :
    Host.tanh (addf (Host.dotGeneral d none H W) (broadcastInDim ⟨2, ![M, N]⟩ ![0, 1] h2 (broadcastInDim ⟨2, ![1, N]⟩ ![1] h1 b))) (ix2 p a)
      = dense Ideal.tanh r W b a := by
  refine (congrArg Ideal.tanh (host_affine_apply d hd H W b h1 h2 p a)).trans ?_
  exact congrArg (fun s => Ideal.tanh (s + b (ix1 a))) (Finset.sum_congr rfl fun k _ => by rw [hr k])

/-- `1 / (1 + exp (-y))` spelt with the host's operations, the two ones an array `X` that reads `1` at the entry, is the
    logistic function of `y` there. -/
theorem host_sigmoid_apply {s : Shape} (X Y : FVec Ideal s .f32) (i : s.Idx) (hX : X i = 1) :
    Host.divf X (addf X (Host.exp (Host.negf Y))) i = Ideal.logistic (Y i) := by
  show Ideal.div (X i) (X i + Ideal.exp (-(Y i))) = _
  rw [hX]
  rfl

/-- The host's dense layer followed by the spelt-out logistic function, the ones being the f32 word of `1.0` spread
    over the block: at `(p, a)`, from what row `p` of its input is. -/
theorem host_logistic_dense_row {M K N : ℕ} (d : DotDims ⟨2, ![M, K]⟩ ⟨2, ![K, N]⟩ ⟨2, ![M, N]⟩) (hd : d = DotDims.plain M K N)
    (H : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M)
    (r : Fin K → EReal) (hr : ∀ k, H (ix2 p k) = r k) (a : Fin N) :
    Host.divf (broadcastInDim ⟨2, ![M, N]⟩ ![] h0 (constant (F := Ideal) ⟨0, ![]⟩ .f32 0x3F800000#32))
        (addf (broadcastInDim ⟨2, ![M, N]⟩ ![] h0 (constant (F := Ideal) ⟨0, ![]⟩ .f32 0x3F800000#32))
          (Host.exp (Host.negf (addf (Host.dotGeneral d none H W)
            (broadcastInDim ⟨2, ![M, N]⟩ ![0, 1] h2 (broadcastInDim ⟨2, ![1, N]⟩ ![1] h1 b)))))) (ix2 p a)
      = dense Ideal.logistic r W b a := by
  have one : Ideal.ofBits .f32 0x3F800000#32 = 1 := IdealRules.sign_bit.ideal_onePat .f32
  have hb1 : broadcastInDim ⟨2, ![M, N]⟩ ![] h0 (constant (F := Ideal) ⟨0, ![]⟩ .f32 0x3F800000#32) (ix2 p a) = 1 :=
    (broadcastInDim_apply _ h0 _ (ix2 p a) ix0 fun ax => ax.elim0).trans one
  refine (host_sigmoid_apply _ _ (ix2 p a) hb1).trans ?_
  refine (congrArg Ideal.logistic (host_affine_apply d hd H W b h1 h2 p a)).trans ?_
  exact congrArg (fun s => Ideal.logistic (s + b (ix1 a))) (Finset.sum_congr rfl fun k _ => by rw [hr k])

end Cert.LibDense

end
-- ==== Proof.RowSpec.lean ====
/-
  What both programs compute, as ONE function of the arguments, row by row.

  Row i of the result depends on row i of x alone (and on all of ref and of the weights):
    gram x_i ref j  = exp (-1 * max ((|x_i|^2 + |ref_j|^2) - 2 * (x_i . ref_j)) 0)       for each of the 1024 rows ref_j,
  the radial-basis kernel between x_i and ref_j through the expansion |x - r|^2 = |x|^2 + |r|^2 - 2 x.r, clamped
  below at zero; then five dense layers with tanh, of widths 16, 12, 8, 4, 4; then one dense layer of width 1 with
  the logistic function. The three scalars 2, 0 and -1 are the same f32 words in both programs and stay words.
  Every sum is a finite sum of extended reals, which needs no order; nothing here distributes or cancels, so no
  entry has to be finite for the two programs to agree.
-/
import proofs.«149388_j65481071406518_1_alg».proof.Proof.LibDense

noncomputable section

open scoped BigOperators
open Idealize.ShloMosaic Idealize.ShloMosaic.ValueIdx Cert.LibDense

namespace Cert.RbfMlp

/-- The f32 words for 2, 0 and -1, read as extended reals. -/
abbrev two : EReal := Ideal.ofBits .f32 0x40000000#32
abbrev zero : EReal := Ideal.ofBits .f32 0x00000000#32
abbrev negOne : EReal := Ideal.ofBits .f32 0xBF800000#32

/-- The squared length of a row. -/
def sqn {K : ℕ} (v : Fin K → EReal) : EReal := ∑ k : Fin K, v k * v k

/-- The radial-basis kernel of a row `xr` against row `j` of `ref`, through the expanded squared distance. -/
def gram (xr : Fin 1024 → EReal) (ref : (⟨2, ![1024, 1024]⟩ : Shape).Idx → EReal) (j : Fin 1024) : EReal :=
  Ideal.exp (negOne * max ((sqn xr + sqn fun k => ref (ix2 j k)) - two * ∑ k : Fin 1024, xr k * ref (ix2 j k)) zero)

/-- One row through the whole network: the Gram row, five tanh layers, the logistic layer. -/
def rowOut (xr : Fin 1024 → EReal) (ref : (⟨2, ![1024, 1024]⟩ : Shape).Idx → EReal)
    (W0 : (⟨2, ![1024, 16]⟩ : Shape).Idx → EReal) (b0 : (⟨1, ![16]⟩ : Shape).Idx → EReal)
    (W1 : (⟨2, ![16, 12]⟩ : Shape).Idx → EReal) (b1 : (⟨1, ![12]⟩ : Shape).Idx → EReal)
    (W2 : (⟨2, ![12, 8]⟩ : Shape).Idx → EReal) (b2 : (⟨1, ![8]⟩ : Shape).Idx → EReal)
    (W3 : (⟨2, ![8, 4]⟩ : Shape).Idx → EReal) (b3 : (⟨1, ![4]⟩ : Shape).Idx → EReal)
    (W4 : (⟨2, ![4, 4]⟩ : Shape).Idx → EReal) (b4 : (⟨1, ![4]⟩ : Shape).Idx → EReal)
    (W5 : (⟨2, ![4, 1]⟩ : Shape).Idx → EReal) (b5 : (⟨1, ![1]⟩ : Shape).Idx → EReal) : EReal :=
  dense Ideal.logistic
    (dense Ideal.tanh (dense Ideal.tanh (dense Ideal.tanh (dense Ideal.tanh (dense Ideal.tanh (gram xr ref) W0 b0) W1 b1) W2 b2) W3 b3) W4 b4)
    W5 b5 (0 : Fin 1)

/-- The whole result: entry `(i, 0)` is row `i` of `x` through the network. -/
def G (x : (⟨2, ![32768, 1024]⟩ : Shape).Idx → EReal) (ref : (⟨2, ![1024, 1024]⟩ : Shape).Idx → EReal)
    (W0 : (⟨2, ![1024, 16]⟩ : Shape).Idx → EReal) (b0 : (⟨1, ![16]⟩ : Shape).Idx → EReal)
    (W1 : (⟨2, ![16, 12]⟩ : Shape).Idx → EReal) (b1 : (⟨1, ![12]⟩ : Shape).Idx → EReal)
    (W2 : (⟨2, ![12, 8]⟩ : Shape).Idx → EReal) (b2 : (⟨1, ![8]⟩ : Shape).Idx → EReal)
    (W3 : (⟨2, ![8, 4]⟩ : Shape).Idx → EReal) (b3 : (⟨1, ![4]⟩ : Shape).Idx → EReal)
    (W4 : (⟨2, ![4, 4]⟩ : Shape).Idx → EReal) (b4 : (⟨1, ![4]⟩ : Shape).Idx → EReal)
    (W5 : (⟨2, ![4, 1]⟩ : Shape).Idx → EReal) (b5 : (⟨1, ![1]⟩ : Shape).Idx → EReal) :
    (⟨2, ![32768, 1]⟩ : Shape).Idx → EReal :=
  fun i => rowOut (fun k => x (ix2 (⟨(i 0).val, idx2_lt0 i⟩ : Fin 32768) k)) ref W0 b0 W1 b1 W2 b2 W3 b3 W4 b4 W5 b5

/-- At an index given by its coordinates, `G` is the row function of that row. -/
theorem G_apply (x : (⟨2, ![32768, 1024]⟩ : Shape).Idx → EReal) (ref : (⟨2, ![1024, 1024]⟩ : Shape).Idx → EReal)
    (W0 : (⟨2, ![1024, 16]⟩ : Shape).Idx → EReal) (b0 : (⟨1, ![16]⟩ : Shape).Idx → EReal)
    (W1 : (⟨2, ![16, 12]⟩ : Shape).Idx → EReal) (b1 : (⟨1, ![12]⟩ : Shape).Idx → EReal)
    (W2 : (⟨2, ![12, 8]⟩ : Shape).Idx → EReal) (b2 : (⟨1, ![8]⟩ : Shape).Idx → EReal)
    (W3 : (⟨2, ![8, 4]⟩ : Shape).Idx → EReal) (b3 : (⟨1, ![4]⟩ : Shape).Idx → EReal)
    (W4 : (⟨2, ![4, 4]⟩ : Shape).Idx → EReal) (b4 : (⟨1, ![4]⟩ : Shape).Idx → EReal)
    (W5 : (⟨2, ![4, 1]⟩ : Shape).Idx → EReal) (b5 : (⟨1, ![1]⟩ : Shape).Idx → EReal) (r : Fin 32768) (u : Fin 1) :
    G x ref W0 b0 W1 b1 W2 b2 W3 b3 W4 b4 W5 b5 (ix2 r u)
      = rowOut (fun k => x (ix2 r k)) ref W0 b0 W1 b1 W2 b2 W3 b3 W4 b4 W5 b5 := rfl

end Cert.RbfMlp

end
-- ==== Proof.KernelRow.lean ====
/-
  The kernel's body on one block of 1024 rows, read at one entry: row p of what it stores is the row function of
  row p of the block of x it loaded (and of the whole of ref and of the weights, which every block loads whole).

  The body first forms, for the block, the Gram rows: |x_p|^2 kept as a column and spread along the row, |ref_j|^2
  kept as a column, turned into a row and spread down the block, and the product of the block with ref transposed
  (both narrowed to bf16 first, which changes nothing over the extended reals); then the five tanh layers and the
  logistic layer, each a plain product into zero plus a bias row repeated down the block. Each of these, at entry
  (p, a), reads row p of its input and nothing else, so the rows never mix.
-/
import proofs.«149388_j65481071406518_1_alg».proof.Proof.Gen.KernelIdeal.Skeleton
import proofs.«149388_j65481071406518_1_alg».proof.Proof.RowSpec

noncomputable section

open scoped BigOperators
open Idealize.ShloMosaic Idealize.ShloMosaic.ValueIdx Cert.LibDense Cert.RbfMlp
open Cert.KernelIdeal Cert.KernelIdeal.Gen

namespace Cert.RbfMlp.KernelRow

/-! ## The Gram rows of a block -/

/-- Each row's squared length, spread along the row. -/
def sqCol (v : FVec Ideal S1024x1024 .f32) : FVec Ideal S1024x1024 .f32 :=
  broadcastTo S1024x1024 (shapeCast S1024x1 (multiReduction .add [1] S1024 (mulf v v) 0x00000000#32 reduces_S1024x1024_S1024 (.inl rfl) rfl)
    shapeCasts_S1024_S1024x1) broadcasts_S1024x1_S1024x1024

/-- Each row's squared length, laid as one row and spread down the block. -/
def sqRow (v : FVec Ideal S1024x1024 .f32) : FVec Ideal S1024x1024 .f32 :=
  broadcastTo S1024x1024 (transpose S1x1024 [1, 0]
    (shapeCast S1024x1 (multiReduction .add [1] S1024 (mulf v v) 0x00000000#32 reduces_S1024x1024_S1024 (.inl rfl) rfl) shapeCasts_S1024_S1024x1)
    transposes_S1024x1_p1_0_S1x1024) broadcasts_S1x1024_S1024x1024

/-- The block of x against ref transposed, both narrowed to bf16, into the zero accumulator. -/
def dotBlock (x0 x1 : FVec Ideal S1024x1024 .f32) : FVec Ideal S1024x1024 .f32 :=
  matmul dot_S1024x1024_S1024x1024_S1024x1024_1_0_0_1_n_n none (truncf .bf16 x0 bitsLt_bf16_f32)
    (transpose S1024x1024 [1, 0] (truncf .bf16 x1 bitsLt_bf16_f32) transposes_S1024x1024_p1_0_S1024x1024)
    (constant S1024x1024 .f32 0x00000000#32)

/-- The Gram rows: exp (-1 * max ((|x|^2 + |ref|^2) - 2 * x.ref) 0), entry by entry. -/
def gramBlock (x0 x1 : FVec Ideal S1024x1024 .f32) : FVec Ideal S1024x1024 .f32 :=
  exp (mulf (broadcast S1024x1024 (Scalar.ofBits .f32 0xBF800000#32))
    (maximumf (subf (addf (sqCol x0) (sqRow x1)) (mulf (broadcast S1024x1024 (Scalar.ofBits .f32 0x40000000#32)) (dotBlock x0 x1)))
      (broadcast S1024x1024 (Scalar.ofBits .f32 0x00000000#32))))

theorem sqCol_apply (v : FVec Ideal S1024x1024 .f32) (p j : Fin 1024) :
    sqCol v (ix2 p j) = ∑ k : Fin 1024, v (ix2 p k) * v (ix2 p k) :=
  sumsq_col_apply v reduces_S1024x1024_S1024 (.inl rfl) rfl shapeCasts_S1024_S1024x1 broadcasts_S1024x1_S1024x1024 p j

theorem sqRow_apply (v : FVec Ideal S1024x1024 .f32) (p j : Fin 1024) :
    sqRow v (ix2 p j) = ∑ k : Fin 1024, v (ix2 j k) * v (ix2 j k) :=
  sumsq_row_apply v reduces_S1024x1024_S1024 (.inl rfl) rfl shapeCasts_S1024_S1024x1 transposes_S1024x1_p1_0_S1x1024
    broadcasts_S1x1024_S1024x1024 p j

/-- Entry (p, j) of the product is row p of x against row j of ref. -/
theorem dotBlock_apply (x0 x1 : FVec Ideal S1024x1024 .f32) (p j : Fin 1024) :
    dotBlock x0 x1 (ix2 p j) = ∑ k : Fin 1024, x0 (ix2 p k) * x1 (ix2 j k) := by
  unfold dotBlock
  rw [matmul_plain_zero_apply dot_S1024x1024_S1024x1024_S1024x1024_1_0_0_1_n_n rfl]
  refine Finset.sum_congr rfl fun k _ => ?_
  rw [truncf_apply, transpose_ix2_apply, truncf_apply]

/-- Row p of the Gram rows is the radial-basis kernel of row p of x against every row of ref. -/
theorem gramBlock_apply (x0 x1 : FVec Ideal S1024x1024 .f32) (p j : Fin 1024) :
    gramBlock x0 x1 (ix2 p j) = gram (fun k => x0 (ix2 p k)) x1 j := by
  show Ideal.exp (negOne * max ((sqCol x0 (ix2 p j) + sqRow x1 (ix2 p j)) - two * dotBlock x0 x1 (ix2 p j)) zero) = _
  rw [sqCol_apply, sqRow_apply, dotBlock_apply]
  rfl

/-! ## The layers -/

/-- The first part of the body (the Gram rows and two tanh layers), at entry (p, a). -/
theorem pay2_row (x0 x1 : FVec Ideal S1024x1024 .f32) (x2 : FVec Ideal S1024x16 .f32) (x3 : FVec Ideal S16 .f32)
    (x4 : FVec Ideal S16x12 .f32) (x5 : FVec Ideal S12 .f32) (p : Fin 1024) (a : Fin 12) :
    k0_pay2 (F := Ideal) x0 x1 x2 x3 x4 x5 (ix2 p a)
      = dense Ideal.tanh (dense Ideal.tanh (gram (fun k => x0 (ix2 p k)) x1) x2 x3) x4 x5 a := by
  have e0 : ∀ j, gramBlock x0 x1 (ix2 p j) = gram (fun k => x0 (ix2 p k)) x1 j := gramBlock_apply x0 x1 p
  have e1 := fun a => tanh_dense_row dot_S1024x1024_S1024x16_S1024x16_1_0_0_1_n_n rfl (gramBlock x0 x1) x2 x3
    shapeCasts_S16_S1x16 broadcasts_S1x16_S1024x16 p _ e0 a
  exact tanh_dense_row dot_S1024x16_S16x12_S1024x12_1_0_0_1_n_n rfl _ x4 x5 shapeCasts_S12_S1x12 broadcasts_S1x12_S1024x12 p _ e1 a

/-- The second part of the body (three tanh layers and the logistic layer), at entry (p, 0), from what row p of its
    input is. -/
theorem pay1_row (v37 : FVec Ideal S1024x12 .f32) (x6 : FVec Ideal S12x8 .f32) (x7 : FVec Ideal S8 .f32)
    (x8 : FVec Ideal S8x4 .f32) (x9 : FVec Ideal S4 .f32) (x10 : FVec Ideal S4x4 .f32) (x11 : FVec Ideal S4 .f32)
    (x12 : FVec Ideal S4x1 .f32) (x13 : FVec Ideal S1 .f32) (p : Fin 1024)
    (r : Fin 12 → EReal) (hr : ∀ k, v37 (ix2 p k) = r k) :
    k0_pay1 (F := Ideal) v37 x6 x7 x8 x9 x10 x11 x12 x13 (ix2 p (0 : Fin 1))
      = dense Ideal.logistic (dense Ideal.tanh (dense Ideal.tanh (dense Ideal.tanh r x6 x7) x8 x9) x10 x11) x12 x13 (0 : Fin 1) := by
  have e2 := fun a => tanh_dense_row dot_S1024x12_S12x8_S1024x8_1_0_0_1_n_n rfl v37 x6 x7
    shapeCasts_S8_S1x8 broadcasts_S1x8_S1024x8 p r hr a
  have e3 := fun a => tanh_dense_row dot_S1024x8_S8x4_S1024x4_1_0_0_1_n_n rfl _ x8 x9
    shapeCasts_S4_S1x4 broadcasts_S1x4_S1024x4 p _ e2 a
  have e4 := fun a => tanh_dense_row dot_S1024x4_S4x4_S1024x4_1_0_0_1_n_n rfl _ x10 x11
    shapeCasts_S4_S1x4 broadcasts_S1x4_S1024x4 p _ e3 a
  exact logistic_dense_row dot_S1024x4_S4x1_S1024x1_1_0_0_1_n_n rfl _ x12 x13 shapeCasts_S1_S1x1 broadcasts_S1x1_S1024x1 p _ e4 (0 : Fin 1)

/-- The whole body's stored value at entry (p, 0): the row function of row p of the loaded block of x. -/
theorem payload_row (x0 x1 : FVec Ideal S1024x1024 .f32) (x2 : FVec Ideal S1024x16 .f32) (x3 : FVec Ideal S16 .f32)
    (x4 : FVec Ideal S16x12 .f32) (x5 : FVec Ideal S12 .f32) (x6 : FVec Ideal S12x8 .f32) (x7 : FVec Ideal S8 .f32)
    (x8 : FVec Ideal S8x4 .f32) (x9 : FVec Ideal S4 .f32) (x10 : FVec Ideal S4x4 .f32) (x11 : FVec Ideal S4 .f32)
    (x12 : FVec Ideal S4x1 .f32) (x13 : FVec Ideal S1 .f32) (p : Fin 1024) :
    k0_pay1 (F := Ideal) (k0_pay2 (F := Ideal) x0 x1 x2 x3 x4 x5) x6 x7 x8 x9 x10 x11 x12 x13 (ix2 p (0 : Fin 1))
      = rowOut (fun k => x0 (ix2 p k)) x1 x2 x3 x4 x5 x6 x7 x8 x9 x10 x11 x12 x13 :=
  pay1_row (k0_pay2 (F := Ideal) x0 x1 x2 x3 x4 x5) x6 x7 x8 x9 x10 x11 x12 x13 p _ (pay2_row x0 x1 x2 x3 x4 x5 p)

end Cert.RbfMlp.KernelRow

end
-- ==== Proof.KernelArray.lean ====
/-
  From the blocks to the whole array, on the kernel's side.

  The grid has 32 points; point t stages rows 1024 t .. 1024 t + 1023 of x and writes back rows 1024 t .. 1024 t + 1023
  of the result; ref and every weight and bias are staged whole at every point. So what point t writes back is block t
  of ONE whole-array function: entry (1024 t + p, 0) is the row function of row 1024 t + p of x. The 32 blocks tile
  the 32768 rows, so after the run the result array is that function everywhere.
-/
import proofs.«149388_j65481071406518_1_alg».proof.Proof.Gen.KernelIdeal.Value
import proofs.«149388_j65481071406518_1_alg».proof.Proof.KernelRow
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.LibDense Cert.RbfMlp

namespace Cert.RbfMlp.KernelArray

open Cert.KernelIdeal Cert.KernelIdeal.Gen Cert.KernelIdeal.Value

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The arguments as launched, and the blocks a point stages, at their literal shapes -/

abbrev A0 (c : Dev nD) : S32768x1024.Idx → EReal := m ((c : Thread nD τ).loc main_arg0)
abbrev A1 (c : Dev nD) : S1024x1024.Idx → EReal := m ((c : Thread nD τ).loc main_arg1)
abbrev A2 (c : Dev nD) : S1024x16.Idx → EReal := m ((c : Thread nD τ).loc main_arg2)
abbrev A3 (c : Dev nD) : S16.Idx → EReal := m ((c : Thread nD τ).loc main_arg3)
abbrev A4 (c : Dev nD) : S16x12.Idx → EReal := m ((c : Thread nD τ).loc main_arg4)
abbrev A5 (c : Dev nD) : S12.Idx → EReal := m ((c : Thread nD τ).loc main_arg5)
abbrev A6 (c : Dev nD) : S12x8.Idx → EReal := m ((c : Thread nD τ).loc main_arg6)
abbrev A7 (c : Dev nD) : S8.Idx → EReal := m ((c : Thread nD τ).loc main_arg7)
abbrev A8 (c : Dev nD) : S8x4.Idx → EReal := m ((c : Thread nD τ).loc main_arg8)
abbrev A9 (c : Dev nD) : S4.Idx → EReal := m ((c : Thread nD τ).loc main_arg9)
abbrev A10 (c : Dev nD) : S4x4.Idx → EReal := m ((c : Thread nD τ).loc main_arg10)
abbrev A11 (c : Dev nD) : S4.Idx → EReal := m ((c : Thread nD τ).loc main_arg11)
abbrev A12 (c : Dev nD) : S4x1.Idx → EReal := m ((c : Thread nD τ).loc main_arg12)
abbrev A13 (c : Dev nD) : S1.Idx → EReal := m ((c : Thread nD τ).loc main_arg13)

abbrev B0 (c : Dev nD) (t : Fin cfg0.N) : FVec Ideal S1024x1024 .f32 := iblk m c 0 t
abbrev B1 (c : Dev nD) (t : Fin cfg0.N) : FVec Ideal S1024x1024 .f32 := iblk m c 1 t
abbrev B2 (c : Dev nD) (t : Fin cfg0.N) : FVec Ideal S1024x16 .f32 := iblk m c 2 t
abbrev B3 (c : Dev nD) (t : Fin cfg0.N) : FVec Ideal S16 .f32 := iblk m c 3 t
abbrev B4 (c : Dev nD) (t : Fin cfg0.N) : FVec Ideal S16x12 .f32 := iblk m c 4 t
abbrev B5 (c : Dev nD) (t : Fin cfg0.N) : FVec Ideal S12 .f32 := iblk m c 5 t
abbrev B6 (c : Dev nD) (t : Fin cfg0.N) : FVec Ideal S12x8 .f32 := iblk m c 6 t
abbrev B7 (c : Dev nD) (t : Fin cfg0.N) : FVec Ideal S8 .f32 := iblk m c 7 t
abbrev B8 (c : Dev nD) (t : Fin cfg0.N) : FVec Ideal S8x4 .f32 := iblk m c 8 t
abbrev B9 (c : Dev nD) (t : Fin cfg0.N) : FVec Ideal S4 .f32 := iblk m c 9 t
abbrev B10 (c : Dev nD) (t : Fin cfg0.N) : FVec Ideal S4x4 .f32 := iblk m c 10 t
abbrev B11 (c : Dev nD) (t : Fin cfg0.N) : FVec Ideal S4 .f32 := iblk m c 11 t
abbrev B12 (c : Dev nD) (t : Fin cfg0.N) : FVec Ideal S4x1 .f32 := iblk m c 12 t
abbrev B13 (c : Dev nD) (t : Fin cfg0.N) : FVec Ideal S1 .f32 := iblk m c 13 t

/-- The result array the kernel ends with: the row function of each row of x. -/
abbrev Gk (c : Dev nD) : S32768x1.Idx → EReal := G (A0 m c) (A1 m c) (A2 m c) (A3 m c) (A4 m c) (A5 m c) (A6 m c) (A7 m c) (A8 m c) (A9 m c) (A10 m c) (A11 m c) (A12 m c) (A13 m c)

/-- Where point t's blocks sit: the x block and the result block at block row t, column block 0. -/
theorem idx_facts : ∀ t : Fin cfg0.N, win0_0.index t (0 : Fin 2) = t.val ∧ win0_0.index t (1 : Fin 2) = 0
    ∧ win0_14.index t (0 : Fin 2) = t.val ∧ win0_14.index t (1 : Fin 2) = 0 :=
  (by decide +kernel : ∀ t : Fin grid0.N, _)

/-! ## ref, the weights and the biases are staged whole at every point -/

theorem B1_eq (c : Dev nD) (t : Fin cfg0.N) : B1 m c t = A1 m c := by
  have hz' : (fun a => win0_1.index t a * main_arg1.ty.shape.size a) = fun _ => 0 := funext fun a => by fin_cases a <;> rfl
  exact Memref.read_access_unit_zero (Elt Ideal) main_arg1 hz' (fun a => by rw [congrFun hz' a]; simp) _
theorem B2_eq (c : Dev nD) (t : Fin cfg0.N) : B2 m c t = A2 m c := by
  have hz' : (fun a => win0_2.index t a * main_arg2.ty.shape.size a) = fun _ => 0 := funext fun a => by fin_cases a <;> rfl
  exact Memref.read_access_unit_zero (Elt Ideal) main_arg2 hz' (fun a => by rw [congrFun hz' a]; simp) _
theorem B3_eq (c : Dev nD) (t : Fin cfg0.N) : B3 m c t = A3 m c := by
  have hz' : (fun a => win0_3.index t a * main_arg3.ty.shape.size a) = fun _ => 0 := funext fun a => by fin_cases a <;> rfl
  exact Memref.read_access_unit_zero (Elt Ideal) main_arg3 hz' (fun a => by rw [congrFun hz' a]; simp) _
theorem B4_eq (c : Dev nD) (t : Fin cfg0.N) : B4 m c t = A4 m c := by
  have hz' : (fun a => win0_4.index t a * main_arg4.ty.shape.size a) = fun _ => 0 := funext fun a => by fin_cases a <;> rfl
  exact Memref.read_access_unit_zero (Elt Ideal) main_arg4 hz' (fun a => by rw [congrFun hz' a]; simp) _
theorem B5_eq (c : Dev nD) (t : Fin cfg0.N) : B5 m c t = A5 m c := by
  have hz' : (fun a => win0_5.index t a * main_arg5.ty.shape.size a) = fun _ => 0 := funext fun a => by fin_cases a <;> rfl
  exact Memref.read_access_unit_zero (Elt Ideal) main_arg5 hz' (fun a => by rw [congrFun hz' a]; simp) _
theorem B6_eq (c : Dev nD) (t : Fin cfg0.N) : B6 m c t = A6 m c := by
  have hz' : (fun a => win0_6.index t a * main_arg6.ty.shape.size a) = fun _ => 0 := funext fun a => by fin_cases a <;> rfl
  exact Memref.read_access_unit_zero (Elt Ideal) main_arg6 hz' (fun a => by rw [congrFun hz' a]; simp) _
theorem B7_eq (c : Dev nD) (t : Fin cfg0.N) : B7 m c t = A7 m c := by
  have hz' : (fun a => win0_7.index t a * main_arg7.ty.shape.size a) = fun _ => 0 := funext fun a => by fin_cases a <;> rfl
  exact Memref.read_access_unit_zero (Elt Ideal) main_arg7 hz' (fun a => by rw [congrFun hz' a]; simp) _
theorem B8_eq (c : Dev nD) (t : Fin cfg0.N) : B8 m c t = A8 m c := by
  have hz' : (fun a => win0_8.index t a * main_arg8.ty.shape.size a) = fun _ => 0 := funext fun a => by fin_cases a <;> rfl
  exact Memref.read_access_unit_zero (Elt Ideal) main_arg8 hz' (fun a => by rw [congrFun hz' a]; simp) _
theorem B9_eq (c : Dev nD) (t : Fin cfg0.N) : B9 m c t = A9 m c := by
  have hz' : (fun a => win0_9.index t a * main_arg9.ty.shape.size a) = fun _ => 0 := funext fun a => by fin_cases a <;> rfl
  exact Memref.read_access_unit_zero (Elt Ideal) main_arg9 hz' (fun a => by rw [congrFun hz' a]; simp) _
theorem B10_eq (c : Dev nD) (t : Fin cfg0.N) : B10 m c t = A10 m c := by
  have hz' : (fun a => win0_10.index t a * main_arg10.ty.shape.size a) = fun _ => 0 := funext fun a => by fin_cases a <;> rfl
  exact Memref.read_access_unit_zero (Elt Ideal) main_arg10 hz' (fun a => by rw [congrFun hz' a]; simp) _
theorem B11_eq (c : Dev nD) (t : Fin cfg0.N) : B11 m c t = A11 m c := by
  have hz' : (fun a => win0_11.index t a * main_arg11.ty.shape.size a) = fun _ => 0 := funext fun a => by fin_cases a <;> rfl
  exact Memref.read_access_unit_zero (Elt Ideal) main_arg11 hz' (fun a => by rw [congrFun hz' a]; simp) _
theorem B12_eq (c : Dev nD) (t : Fin cfg0.N) : B12 m c t = A12 m c := by
  have hz' : (fun a => win0_12.index t a * main_arg12.ty.shape.size a) = fun _ => 0 := funext fun a => by fin_cases a <;> rfl
  exact Memref.read_access_unit_zero (Elt Ideal) main_arg12 hz' (fun a => by rw [congrFun hz' a]; simp) _
theorem B13_eq (c : Dev nD) (t : Fin cfg0.N) : B13 m c t = A13 m c := by
  have hz' : (fun a => win0_13.index t a * main_arg13.ty.shape.size a) = fun _ => 0 := funext fun a => by fin_cases a <;> rfl
  exact Memref.read_access_unit_zero (Elt Ideal) main_arg13 hz' (fun a => by rw [congrFun hz' a]; simp) _

/-! ## The x block at point t is rows 1024 t .. of x -/

theorem B0_apply (c : Dev nD) (t : Fin cfg0.N) (p k : Fin 1024) (h : t.val * 1024 + p.val < 32768) :
    B0 m c t (ix2 p k) = A0 m c (ix2 (⟨t.val * 1024 + p.val, h⟩ : Fin 32768) k) := by
  show iblk m c 0 t (ix2 p k) = _
  unfold iblk
  rw [View.read_apply]
  show V m c main_arg0 _ = m ((c : Thread nD τ).loc main_arg0) _
  unfold V
  congr 1
  funext a
  apply Fin.ext
  match a with
  | ⟨0, _⟩ => show win0_0.index t (0 : Fin 2) * 1024 + 1 * p.val = t.val * 1024 + p.val; rw [(idx_facts t).1]; omega
  | ⟨1, _⟩ => show win0_0.index t (1 : Fin 2) * 1024 + 1 * k.val = k.val; rw [(idx_facts t).2.1]; omega

/-! ## What a point stores, at an entry -/

/-- Entry (p, 0) of what point t stores is the row function of row 1024 t + p of x. -/
theorem point_row (c : Dev nD) (t : Fin cfg0.N) (p : Fin 1024) (h : t.val * 1024 + p.val < 32768) :
    k0_pay1 (F := Ideal) (k0_pay2 (F := Ideal) (B0 m c t) (B1 m c t) (B2 m c t) (B3 m c t) (B4 m c t) (B5 m c t)) (B6 m c t) (B7 m c t) (B8 m c t) (B9 m c t) (B10 m c t) (B11 m c t) (B12 m c t) (B13 m c t) (ix2 p (0 : Fin 1))
      = Gk m c (ix2 (⟨t.val * 1024 + p.val, h⟩ : Fin 32768) (0 : Fin 1)) := by
  refine (KernelRow.payload_row (B0 m c t) (B1 m c t) (B2 m c t) (B3 m c t) (B4 m c t) (B5 m c t) (B6 m c t) (B7 m c t) (B8 m c t) (B9 m c t) (B10 m c t) (B11 m c t) (B12 m c t) (B13 m c t) p).trans ?_
  rw [B1_eq, B2_eq, B3_eq, B4_eq, B5_eq, B6_eq, B7_eq, B8_eq, B9_eq, B10_eq, B11_eq, B12_eq, B13_eq,
    show (fun k => B0 m c t (ix2 p k)) = fun k => A0 m c (ix2 (⟨t.val * 1024 + p.val, h⟩ : Fin 32768) k) from
      funext fun k => B0_apply m c t p k h]
  rfl

/-- WHAT POINT t WRITES BACK is block t of the whole-array function. -/
theorem flushed_eq (c : Dev nD) (t : Fin cfg0.N) :
    (dats m 0 c).flushed 14 t = ((cfg0.win 14).blk t).view.read (Elt Ideal) (Gk m c) := by
  rw [flushed14]
  unfold out0_14
  rw [View.canon_unit_zero hz2]
  simp only [View.ld_unit_zero (S := S1024x1024) hz2, View.ld_unit_zero (S := S1024x16) hz2, View.ld_unit_zero (S := S16) hz1, View.ld_unit_zero (S := S16x12) hz2, View.ld_unit_zero (S := S12) hz1, View.ld_unit_zero (S := S12x8) hz2, View.ld_unit_zero (S := S8) hz1, View.ld_unit_zero (S := S8x4) hz2, View.ld_unit_zero (S := S4) hz1, View.ld_unit_zero (S := S4x4) hz2, View.ld_unit_zero (S := S4x1) hz2, View.ld_unit_zero (S := S1) hz1]
  funext j
  have hN : cfg0.N = 32 := N_0
  have ht : t.val < 32 := hN ▸ t.isLt
  have hj0 : (j 0).val < 1024 := (j 0).isLt
  have hj1 : (j 1).val < 1 := (j 1).isLt
  have hrow : t.val * 1024 + (j 0).val < 32768 := by omega
  have eL : (cfg0.win 14).xinj (grid0.coords t) j = ix2 (⟨(j 0).val, hj0⟩ : Fin 1024) (0 : Fin 1) :=
    funext fun a => Fin.ext (by
      match a with
      | ⟨0, _⟩ => rfl
      | ⟨1, _⟩ => show (j 1).val = 0; omega)
  have eR : ((cfg0.win 14).blk t).view.emb j = ix2 (⟨t.val * 1024 + (j 0).val, hrow⟩ : Fin 32768) (0 : Fin 1) :=
    funext fun a => Fin.ext (by
      match a with
      | ⟨0, _⟩ => show win0_14.index t (0 : Fin 2) * 1024 + 1 * (j 0).val = t.val * 1024 + (j 0).val; rw [(idx_facts t).2.2.1]; omega
      | ⟨1, _⟩ => show win0_14.index t (1 : Fin 2) * 1 + 1 * (j 1).val = 0; rw [(idx_facts t).2.2.2]; omega)
  rw [View.read_apply, eR]
  show k0_pay1 (F := Ideal) (k0_pay2 (F := Ideal) (B0 m c t) (B1 m c t) (B2 m c t) (B3 m c t) (B4 m c t) (B5 m c t)) (B6 m c t) (B7 m c t) (B8 m c t) (B9 m c t) (B10 m c t) (B11 m c t) (B12 m c t) (B13 m c t) ((cfg0.win 14).xinj (grid0.coords t) j) = _
  rw [eL]
  exact point_row m c t ⟨(j 0).val, hj0⟩ hrow

/-! ## The 32 blocks tile the result -/

/-- An index of the result is in point t's block iff each coordinate is in the block's range on its axis. -/
theorem mem_blk (t : Fin cfg0.N) (i : S32768x1.Idx) :
    i ∈ ((cfg0.win 14).blk t).view.set ↔ ∀ a : Fin 2, win0_14.index t a * S1024x1.size a ≤ (i a).val ∧ (i a).val < win0_14.index t a * S1024x1.size a + S1024x1.size a := by
  show i ∈ ((View.whole main_v0).slice (win0_14.rect t)).set ↔ _
  rw [View.set_slice_whole, Rect.mem_set_unit]
  exact Iff.rfl

/-- Row r of the result lies in the block of point r / 1024. -/
theorem cover (i : S32768x1.Idx) : ∃ t : Fin cfg0.N, (cfg0.win 14).flush t = true ∧ i ∈ ((cfg0.win 14).blk t).view.set := by
  have hN : cfg0.N = 32 := N_0
  have hi0 : (i 0).val < 32768 := (i 0).isLt
  have hi1 : (i 1).val < 1 := (i 1).isLt
  have hq : (i 0).val / 1024 < cfg0.N := by rw [hN]; omega
  refine ⟨⟨(i 0).val / 1024, hq⟩, flush0_14 _, ?_⟩
  rw [mem_blk]
  obtain ⟨-, -, e0, e1⟩ := idx_facts ⟨(i 0).val / 1024, hq⟩
  intro a
  match a with
  | ⟨0, _⟩ =>
    show win0_14.index ⟨(i 0).val / 1024, hq⟩ (0 : Fin 2) * 1024 ≤ (i 0).val ∧ (i 0).val < win0_14.index ⟨(i 0).val / 1024, hq⟩ (0 : Fin 2) * 1024 + 1024
    rw [e0]
    show (i 0).val / 1024 * 1024 ≤ (i 0).val ∧ (i 0).val < (i 0).val / 1024 * 1024 + 1024
    omega
  | ⟨1, _⟩ =>
    show win0_14.index ⟨(i 0).val / 1024, hq⟩ (1 : Fin 2) * 1 ≤ (i 1).val ∧ (i 1).val < win0_14.index ⟨(i 0).val / 1024, hq⟩ (1 : Fin 2) * 1 + 1
    rw [e1]
    omega

/-- THE ARRAY after the run: the row function of every row of x. -/
theorem final (c : Dev nD) : (dats m 0 c).arrAt 14 cfg0.N = Gk m c :=
  (dats m 0 c).arrAt_eq_of_cover 14 (Gk m c) (fun t _ => flushed_eq m c t) cover

/-! ## The run, read -/

/-- The kernel's run: the result array ends at `Gk`, the arguments unchanged. -/
theorem run : θ_run defs (onTc (τ := τ) (main (F := Ideal))) ⟨m, fun _ => 0, ρ⟩ fun r => ∀ c : Dev nD,
      r.2.mem ((c : Thread nD τ).loc main_v0) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (run_blocks m ρ)

end Cert.RbfMlp.KernelArray

end
-- ==== Proof.RefRow.lean ====
/-
  The reference, read at one entry: entry (i, 0) of its result is the row function of row i of x.

  The reference forms the same quantities over all 32768 rows at once: the squared lengths of the rows of x and of
  ref (each a sum from the initial value 0, which adds nothing), spread to [32768, 1024]; the product of x with ref
  transposed; the clamped expansion and its exponential; five dense layers with tanh; and a last dense layer followed
  by 1 / (1 + exp (-z)) written out, which is the logistic function. Each of them, at an entry of row i, reads row i
  of its input and nothing else.
-/
import proofs.«149388_j65481071406518_1_alg».proof.Proof.Gen.ReferenceIdeal.Read
import proofs.«149388_j65481071406518_1_alg».proof.Proof.RowSpec

noncomputable section

open scoped BigOperators
open Idealize.ShloMosaic Idealize.ShloMosaic.ValueIdx Cert.LibDense Cert.RbfMlp
open Cert.ReferenceIdeal Cert.ReferenceIdeal.Gen Cert.ReferenceIdeal.Read

namespace Cert.RbfMlp.RefRow

/-! ## The Gram rows -/

/-- The squared length of row i of x, spread along the row. -/
theorem xsq_apply (x0 : (⟨S32768x1024, .f32⟩ : BufTy).Contents (Elt Ideal)) (i : Fin 32768) (j : Fin 1024) :
    val_main_v6 (F := Ideal) x0 (ix2 i j) = sqn fun k => x0 (ix2 i k) := by
  rw [val_main_v6_apply, val_main_v2_apply, val_main_v1_apply, val_main_cst_apply]
  simp only [Ideal.ofBits_def, Ideal.ofBits_zero_f32, zero_add]
  unfold sqn
  refine Finset.sum_congr rfl fun k _ => ?_
  rw [val_main_v0_apply,
    show idx_main_v1 (idx_main_v2 (idx_main_v6 (ix2 i j))) k = ix2 i k from
      funext fun a => Fin.ext (by match a with | ⟨0, _⟩ => rfl | ⟨1, _⟩ => rfl)]
  rfl

/-- The squared length of row j of ref, spread down the rows. -/
theorem rsq_apply (x1 : (⟨S1024x1024, .f32⟩ : BufTy).Contents (Elt Ideal)) (i : Fin 32768) (j : Fin 1024) :
    val_main_v7 (F := Ideal) x1 (ix2 i j) = sqn fun k => x1 (ix2 j k) := by
  rw [val_main_v7_apply, val_main_v5_apply, val_main_v4_apply, val_main_cst_0_apply]
  simp only [Ideal.ofBits_def, Ideal.ofBits_zero_f32, zero_add]
  unfold sqn
  refine Finset.sum_congr rfl fun k _ => ?_
  rw [val_main_v3_apply,
    show idx_main_v4 (idx_main_v5 (idx_main_v7 (ix2 i j))) k = ix2 j k from
      funext fun a => Fin.ext (by match a with | ⟨0, _⟩ => rfl | ⟨1, _⟩ => rfl)]
  rfl

/-- Entry (i, j) of x times ref transposed is row i of x against row j of ref. -/
theorem dot_apply (x0 : (⟨S32768x1024, .f32⟩ : BufTy).Contents (Elt Ideal)) (x1 : (⟨S1024x1024, .f32⟩ : BufTy).Contents (Elt Ideal))
    (i : Fin 32768) (j : Fin 1024) :
    val_main_v10 (F := Ideal) x0 x1 (ix2 i j) = ∑ k : Fin 1024, x0 (ix2 i k) * x1 (ix2 j k) := by
  rw [val_main_v10_apply]
  refine Finset.sum_congr rfl fun k _ => ?_
  rw [val_main_v9_apply,
    show lidx_main_v10 (ix2 i j) k = ix2 i k from
      funext fun a => Fin.ext (by match a with | ⟨0, _⟩ => rfl | ⟨1, _⟩ => rfl),
    show idx_main_v9 (ridx_main_v10 (ix2 i j) k) = ix2 j k from
      funext fun a => Fin.ext (by match a with | ⟨0, _⟩ => rfl | ⟨1, _⟩ => rfl)]

/-- Row i of the reference's Gram matrix is the radial-basis kernel of row i of x against every row of ref. -/
theorem gram_apply (x0 : (⟨S32768x1024, .f32⟩ : BufTy).Contents (Elt Ideal)) (x1 : (⟨S1024x1024, .f32⟩ : BufTy).Contents (Elt Ideal))
    (i : Fin 32768) (j : Fin 1024) :
    val_main_v18 (F := Ideal) x0 x1 (ix2 i j) = gram (fun k => x0 (ix2 i k)) x1 j := by
  rw [val_main_v18_apply, val_main_v17_apply, val_main_v16_apply, val_main_cst_3_apply, val_main_v15_apply,
    val_main_v14_apply, val_main_cst_2_apply, val_main_v13_apply, val_main_v8_apply, val_main_v12_apply,
    val_main_v11_apply, val_main_cst_1_apply, xsq_apply, rsq_apply, dot_apply]
  rfl

/-! ## The layers -/

/-- Entry (i, 0) of the reference's result is the row function of row i of x. -/
theorem result_row (x0 : (⟨S32768x1024, .f32⟩ : BufTy).Contents (Elt Ideal)) (x1 : (⟨S1024x1024, .f32⟩ : BufTy).Contents (Elt Ideal))
    (x2 : (⟨S1024x16, .f32⟩ : BufTy).Contents (Elt Ideal)) (x3 : (⟨S16, .f32⟩ : BufTy).Contents (Elt Ideal))
    (x4 : (⟨S16x12, .f32⟩ : BufTy).Contents (Elt Ideal)) (x5 : (⟨S12, .f32⟩ : BufTy).Contents (Elt Ideal))
    (x6 : (⟨S12x8, .f32⟩ : BufTy).Contents (Elt Ideal)) (x7 : (⟨S8, .f32⟩ : BufTy).Contents (Elt Ideal))
    (x8 : (⟨S8x4, .f32⟩ : BufTy).Contents (Elt Ideal)) (x9 : (⟨S4, .f32⟩ : BufTy).Contents (Elt Ideal))
    (x10 : (⟨S4x4, .f32⟩ : BufTy).Contents (Elt Ideal)) (x11 : (⟨S4, .f32⟩ : BufTy).Contents (Elt Ideal))
    (x12 : (⟨S4x1, .f32⟩ : BufTy).Contents (Elt Ideal)) (x13 : (⟨S1, .f32⟩ : BufTy).Contents (Elt Ideal)) (i : Fin 32768) :
    val_main_v53 (F := Ideal) x0 x1 x2 x3 x4 x5 x6 x7 x8 x9 x10 x11 x12 x13 (ix2 i (0 : Fin 1))
      = rowOut (fun k => x0 (ix2 i k)) x1 x2 x3 x4 x5 x6 x7 x8 x9 x10 x11 x12 x13 := by
  have e0 : ∀ j, val_main_v18 (F := Ideal) x0 x1 (ix2 i j) = gram (fun k => x0 (ix2 i k)) x1 j := gram_apply x0 x1 i
  have e1 := fun a => host_tanh_dense_row dot_S32768x1024_S1024x16_S32768x16_1_0_0_1_n_n rfl (val_main_v18 (F := Ideal) x0 x1) x2 x3
    bcast_S16_S1x16_1 bcast_S1x16_S32768x16_0_1 i _ e0 a
  have e2 := fun a => host_tanh_dense_row dot_S32768x16_S16x12_S32768x12_1_0_0_1_n_n rfl _ x4 x5
    bcast_S12_S1x12_1 bcast_S1x12_S32768x12_0_1 i _ e1 a
  have e3 := fun a => host_tanh_dense_row dot_S32768x12_S12x8_S32768x8_1_0_0_1_n_n rfl _ x6 x7
    bcast_S8_S1x8_1 bcast_S1x8_S32768x8_0_1 i _ e2 a
  have e4 := fun a => host_tanh_dense_row dot_S32768x8_S8x4_S32768x4_1_0_0_1_n_n rfl _ x8 x9
    bcast_S4_S1x4_1 bcast_S1x4_S32768x4_0_1 i _ e3 a
  have e5 := fun a => host_tanh_dense_row dot_S32768x4_S4x4_S32768x4_1_0_0_1_n_n rfl _ x10 x11
    bcast_S4_S1x4_1 bcast_S1x4_S32768x4_0_1 i _ e4 a
  exact host_logistic_dense_row dot_S32768x4_S4x1_S32768x1_1_0_0_1_n_n rfl _ x12 x13
    bcast_S1_S1x1_1 bcast_S1x1_S32768x1_0_1 bcast_S_S32768x1 i _ e5 (0 : Fin 1)

/-- The reference's result array is the whole-array function: every index is (i, 0), and there it is the row function
    of row i of x. -/
theorem result_eq (x0 : (⟨S32768x1024, .f32⟩ : BufTy).Contents (Elt Ideal)) (x1 : (⟨S1024x1024, .f32⟩ : BufTy).Contents (Elt Ideal))
    (x2 : (⟨S1024x16, .f32⟩ : BufTy).Contents (Elt Ideal)) (x3 : (⟨S16, .f32⟩ : BufTy).Contents (Elt Ideal))
    (x4 : (⟨S16x12, .f32⟩ : BufTy).Contents (Elt Ideal)) (x5 : (⟨S12, .f32⟩ : BufTy).Contents (Elt Ideal))
    (x6 : (⟨S12x8, .f32⟩ : BufTy).Contents (Elt Ideal)) (x7 : (⟨S8, .f32⟩ : BufTy).Contents (Elt Ideal))
    (x8 : (⟨S8x4, .f32⟩ : BufTy).Contents (Elt Ideal)) (x9 : (⟨S4, .f32⟩ : BufTy).Contents (Elt Ideal))
    (x10 : (⟨S4x4, .f32⟩ : BufTy).Contents (Elt Ideal)) (x11 : (⟨S4, .f32⟩ : BufTy).Contents (Elt Ideal))
    (x12 : (⟨S4x1, .f32⟩ : BufTy).Contents (Elt Ideal)) (x13 : (⟨S1, .f32⟩ : BufTy).Contents (Elt Ideal)) :
    val_main_v53 (F := Ideal) x0 x1 x2 x3 x4 x5 x6 x7 x8 x9 x10 x11 x12 x13
      = G x0 x1 x2 x3 x4 x5 x6 x7 x8 x9 x10 x11 x12 x13 := by
  funext i
  obtain ⟨r, u, rfl⟩ : ∃ (r : Fin 32768) (u : Fin 1), i = ix2 r u := ⟨i 0, i 1, eq_ix2 i⟩
  obtain rfl : u = 0 := Subsingleton.elim u 0
  rw [G_apply]
  exact result_row x0 x1 x2 x3 x4 x5 x6 x7 x8 x9 x10 x11 x12 x13 r

end Cert.RbfMlp.RefRow

end
-- ==== Proof.lean ====
/-
  An RBF Gram matrix followed by a small tanh network, one block of 1024 rows at a time, against the same computation
  over all 32768 rows at once.

  Both programs compute, for each row x_i of x,
    h0_j = exp (-1 * max ((|x_i|^2 + |ref_j|^2) - 2 * (x_i . ref_j)) 0)        over the 1024 rows ref_j of ref,
    five dense layers with tanh (widths 16, 12, 8, 4, 4), and a last dense layer of width 1 with the logistic function,
  with the same three scalar words 2, 0 and -1, the sums in the same grouping. Over the extended reals the kernel's
  narrowing of x and ref to bf16 before their product is the identity, a product into a zero accumulator is the bare
  sum, a sum from the initial value 0 is the bare sum, and the reference's 1 / (1 + exp (-z)) is the logistic function
  the kernel applies. Nothing distributes or cancels, so the two results agree on every input, finite or not: the
  precondition is not used for the values.

  The kernel's side: each grid point stores, at entry (p, 0) of its block, the row function of row p of the block of x it
  staged (Proof/KernelRow.lean, over Proof/LibDense.lean's reading of a dense layer at one entry); the 32 blocks tile
  the result (Proof/KernelArray.lean). The reference's side: entry (i, 0) is the row function of row i
  (Proof/RefRow.lean). Proof/RowSpec.lean states the row function and the whole-array function both sides meet at.
  The three frames are the generated ones (the reference's is its generated run with the value dropped); the ideal pass
  rewrote nothing, so there is nothing to preserve.
-/
import proofs.«149388_j65481071406518_1_alg».proof.Defs
import proofs.«149388_j65481071406518_1_alg».proof.Proof.Gen.Kernel
import proofs.«149388_j65481071406518_1_alg».proof.Proof.Gen.Kernel.Skeleton
import proofs.«149388_j65481071406518_1_alg».proof.Proof.Gen.Kernel.Launch
import proofs.«149388_j65481071406518_1_alg».proof.Proof.Gen.Kernel.Points
import proofs.«149388_j65481071406518_1_alg».proof.Proof.Gen.Kernel.Frame
import proofs.«149388_j65481071406518_1_alg».proof.Proof.Gen.KernelIdeal
import proofs.«149388_j65481071406518_1_alg».proof.Proof.Gen.KernelIdeal.Skeleton
import proofs.«149388_j65481071406518_1_alg».proof.Proof.Gen.KernelIdeal.Launch
import proofs.«149388_j65481071406518_1_alg».proof.Proof.Gen.KernelIdeal.Points
import proofs.«149388_j65481071406518_1_alg».proof.Proof.Gen.KernelIdeal.Frame
import proofs.«149388_j65481071406518_1_alg».proof.Proof.Gen.ReferenceIdeal
import proofs.«149388_j65481071406518_1_alg».proof.Proof.Gen.Pre_finite_inputs
import proofs.«149388_j65481071406518_1_alg».proof.Proof.Gen.KernelIdeal.Value
import proofs.«149388_j65481071406518_1_alg».proof.Proof.Gen.ReferenceIdeal.Run
import proofs.«149388_j65481071406518_1_alg».proof.Proof.Gen.ReferenceIdeal.Read
import proofs.«149388_j65481071406518_1_alg».proof.Proof.KernelArray
import proofs.«149388_j65481071406518_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From arguments that agree, both programs end with the whole-array function of those arguments: the kernel block by
    block, the reference all rows at once. -/
theorem algebraic : Cert.algebraic_KernelIdeal_ReferenceIdeal := by
  intro m ρ m' ρ' _ hagree
  refine ⟨fun c => Cert.RbfMlp.KernelArray.Gk m c, Cert.RbfMlp.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [a0, a1, a2, a3, a4, a5, a6, a7, a8, a9, a10, a11, a12, a13]
  exact (Cert.ReferenceIdeal.Read.val_main_v53_eq _ _ _ _ _ _ _ _ _ _ _ _ _ _).trans
    (Cert.RbfMlp.RefRow.result_eq _ _ _ _ _ _ _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
